-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000 : Shape := ⟨1, ![320000]⟩
abbrev S100000x256 : Shape := ⟨2, ![100000, 256]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : IVec S320000 32) (main_arg1 : IVec S320000 32) (main_arg2 : FVec F S100000x256 .f32) (main_arg3 : FVec F S256x256 .f32) (main_arg4 : FVec F S256 .f32) (main_arg5 : FVec F S256x256 .f32) (main_arg6 : FVec F S256 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S320000 : Shape := ⟨1, ![320000]⟩
abbrev S100000x256 : Shape := ⟨2, ![100000, 256]⟩
abbrev S256x256 : Shape := ⟨2, ![256, 256]⟩
abbrev S256 : Shape := ⟨1, ![256]⟩
abbrev S_ : Shape := ⟨0, ![]⟩
abbrev S100000 : Shape := ⟨1, ![100000]⟩
abbrev S320000x1 : Shape := ⟨2, ![320000, 1]⟩
abbrev S100000x1 : Shape := ⟨2, ![100000, 1]⟩
abbrev S320000x256 : Shape := ⟨2, ![320000, 256]⟩
abbrev S1x256 : Shape := ⟨2, ![1, 256]⟩
abbrev S2000x256 : Shape := ⟨2, ![2000, 256]⟩
abbrev S2000x1 : Shape := ⟨2, ![2000, 1]⟩

abbrev nBuf : Space → Nat
  | .hbm => 74
  | .vmem => 16
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S100000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S320000, .f32⟩
  | .hbm, ⟨9, _⟩ => ⟨S_, .f32⟩
  | .hbm, ⟨10, _⟩ => ⟨S100000, .f32⟩
  | .hbm, ⟨11, _⟩ => ⟨S320000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S320000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000x1, .f32⟩
  | .hbm, ⟨40, _⟩ => ⟨S_, .i32⟩
  | .hbm, ⟨41, _⟩ => ⟨S320000, .i32⟩
  | .hbm, ⟨42, _⟩ => ⟨S320000, .i1⟩
  | .hbm, ⟨43, _⟩ => ⟨S_, .i32⟩
  | .hbm, ⟨44, _⟩ => ⟨S320000, .i32⟩
  | .hbm, ⟨45, _⟩ => ⟨S320000, .i32⟩
  | .hbm, ⟨46, _⟩ => ⟨S320000, .i32⟩
  | .hbm, ⟨47, _⟩ => ⟨S320000x1, .i32⟩
  | .hbm, ⟨48, _⟩ => ⟨S320000x256, .f32⟩
  | .hbm, ⟨49, _⟩ => ⟨S320000x256, .f32⟩
  | .hbm, ⟨50, _⟩ => ⟨S320000x256, .f32⟩
  | .hbm, ⟨51, _⟩ => ⟨S_, .f32⟩
  | .hbm, ⟨52, _⟩ => ⟨S100000x256, .f32⟩
  | .hbm, ⟨53, _⟩ => ⟨S320000x1, .i32⟩
  | .hbm, ⟨54, _⟩ => ⟨S100000x256, .f32⟩
  | .hbm, ⟨55, _⟩ => ⟨S1x256, .f32⟩
  | .hbm, ⟨56, _⟩ => ⟨S100000x256, .f32⟩
  | .hbm, ⟨57, _⟩ => ⟨S_, .i32⟩
  | .hbm, ⟨58, _⟩ => ⟨S320000, .i32⟩
  | .hbm, ⟨59, _⟩ => ⟨S320000, .i1⟩
  | .hbm, ⟨60, _⟩ => ⟨S_, .i32⟩
  | .hbm, ⟨61, _⟩ => ⟨S320000, .i32⟩
  | .hbm, ⟨62, _⟩ => ⟨S320000, .i32⟩
  | .hbm, ⟨63, _⟩ => ⟨S320000, .i32⟩
  | .hbm, ⟨64, _⟩ => ⟨S320000x1, .i32⟩
  | .hbm, ⟨65, _⟩ => ⟨S320000x256, .f32⟩
  | .hbm, ⟨66, _⟩ => ⟨S320000x256, .f32⟩
  | .hbm, ⟨67, _⟩ => ⟨S320000x256, .f32⟩
  | .hbm, ⟨68, _⟩ => ⟨S_, .f32⟩
  | .hbm, ⟨69, _⟩ => ⟨S100000x256, .f32⟩
  | .hbm, ⟨70, _⟩ => ⟨S320000x1, .i32⟩
  | .hbm, ⟨71, _⟩ => ⟨S100000x256, .f32⟩
  | .hbm, ⟨72, _⟩ => ⟨S1x256, .f32⟩
  | .hbm, ⟨73, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | .local _ .vmem, ⟨12, _⟩ => ⟨S256x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S320000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_c_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_c_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S320000 : S_.BroadcastsInDim S320000 (![] : Fin 0 → Fin S320000.rank)
  bcast_S_S100000 : S_.BroadcastsInDim S100000 (![] : Fin 0 → Fin S100000.rank)
  bcast_S320000_S320000x1_0 : S320000.BroadcastsInDim S320000x1 (![0] : Fin 1 → Fin S320000x1.rank)
  shapeCasts_S100000_S100000x1 : S100000.ShapeCasts S100000x1
  bcast_S320000x1_S320000x256_0_1 : S320000x1.BroadcastsInDim S320000x256 (![0, 1] : Fin 2 → Fin S320000x256.rank)
  bcast_S_S100000x256 : S_.BroadcastsInDim S100000x256 (![] : Fin 0 → Fin S100000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S100000_S320000x1_S320000_n_0_0_1_wf : ScatterDims.WF S100000 S320000x1 S320000 [] [0] [0] 1
  gather_S100000x1_S320000x1_S320000x1_1_0_n_n_0_1_11_wf : GatherDims.WF S100000x1 S320000x1 S320000x1 [1] [0] [] [0] [] 1 ![1, 1]
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S100000x256.size a
  hwx0_4 : ∀ i : grid0.Coords, EltTy.bits .f32 = 32 ∨ (Rect.block (s := S100000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S100000x256.size a
  hwx1_4 : ∀ i : grid1.Coords, EltTy.bits .f32 = 32 ∨ (Rect.block (s := S100000x256) S2000x256.size (cc1_transform_4 i) (hinb1_4 i)).WholeWords (EltTy.packing .f32)

variable [Facts₀]

def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def gather_S100000x1_S320000x1_S320000x1_1_0_n_n_0_1_11 : GatherDims S100000x1 S320000x1 S320000x1 where
  offsetDims := [1]
  collapsedSliceDims := [0]
  operandBatchingDims := []
  startIndicesBatchingDims := []
  startIndexMap := [0]
  indexVectorDim := 1
  sliceSizes := ![1, 1]
  wf := gather_S100000x1_S320000x1_S320000x1_1_0_n_n_0_1_11_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v35) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S320000 : Shape := ⟨1, ![320000]⟩
abbrev S100000x256 : Shape := ⟨2, ![100000, 256]⟩
abbrev S256x256 : Shape := ⟨2, ![256, 256]⟩
abbrev S256 : Shape := ⟨1, ![256]⟩
abbrev S_ : Shape := ⟨0, ![]⟩
abbrev S100000 : Shape := ⟨1, ![100000]⟩
abbrev S320000x1 : Shape := ⟨2, ![320000, 1]⟩
abbrev S100000x1 : Shape := ⟨2, ![100000, 1]⟩
abbrev S320000x256 : Shape := ⟨2, ![320000, 256]⟩
abbrev S1x256 : Shape := ⟨2, ![1, 256]⟩

abbrev nBuf : Space → Nat
  | .hbm => 107
  | .vmem => 0
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S100000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S320000, .f32⟩
  | .hbm, ⟨9, _⟩ => ⟨S_, .f32⟩
  | .hbm, ⟨10, _⟩ => ⟨S100000, .f32⟩
  | .hbm, ⟨11, _⟩ => ⟨S320000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S320000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x256, .f32⟩
  | .hbm, ⟨30, _⟩ => ⟨S100000x256, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000x256, .f32⟩
  | .hbm, ⟨40, _⟩ => ⟨S_, .f32⟩
  | .hbm, ⟨41, _⟩ => ⟨S100000x256, .f32⟩
  | .hbm, ⟨42, _⟩ => ⟨S320000x1, .i32⟩
  | .hbm, ⟨43, _⟩ => ⟨S100000x256, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x256, .f32⟩
  | .hbm, ⟨49, _⟩ => ⟨S100000x256, .f32⟩
  | .hbm, ⟨50, _⟩ => ⟨S100000x256, .f32⟩
  | .hbm, ⟨51, _⟩ => ⟨S1x256, .f32⟩
  | .hbm, ⟨52, _⟩ => ⟨S100000x256, .f32⟩
  | .hbm, ⟨53, _⟩ => ⟨S100000x256, .f32⟩
  | .hbm, ⟨54, _⟩ => ⟨S_, .f32⟩
  | .hbm, ⟨55, _⟩ => ⟨S100000x256, .f32⟩
  | .hbm, ⟨56, _⟩ => ⟨S100000x256, .f32⟩
  | .hbm, ⟨57, _⟩ => ⟨S_, .f32⟩
  | .hbm, ⟨58, _⟩ => ⟨S320000, .f32⟩
  | .hbm, ⟨59, _⟩ => ⟨S_, .f32⟩
  | .hbm, ⟨60, _⟩ => ⟨S100000, .f32⟩
  | .hbm, ⟨61, _⟩ => ⟨S320000x1, .i32⟩
  | .hbm, ⟨62, _⟩ => ⟨S100000, .f32⟩
  | .hbm, ⟨63, _⟩ => ⟨S_, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S320000x1, .i32⟩
  | .hbm, ⟨70, _⟩ => ⟨S100000, .f32⟩
  | .hbm, ⟨71, _⟩ => ⟨S_, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x256, .f32⟩
  | .hbm, ⟨80, _⟩ => ⟨S100000x256, .f32⟩
  | .hbm, ⟨81, _⟩ => ⟨S_, .i32⟩
  | .hbm, ⟨82, _⟩ => ⟨S320000, .i32⟩
  | .hbm, ⟨83, _⟩ => ⟨S320000, .i1⟩
  | .hbm, ⟨84, _⟩ => ⟨S_, .i32⟩
  | .hbm, ⟨85, _⟩ => ⟨S320000, .i32⟩
  | .hbm, ⟨86, _⟩ => ⟨S320000, .i32⟩
  | .hbm, ⟨87, _⟩ => ⟨S320000, .i32⟩
  | .hbm, ⟨88, _⟩ => ⟨S320000x1, .i32⟩
  | .hbm, ⟨89, _⟩ => ⟨S320000x256, .f32⟩
  | .hbm, ⟨90, _⟩ => ⟨S_, .f32⟩
  | .hbm, ⟨91, _⟩ => ⟨S100000x256, .f32⟩
  | .hbm, ⟨92, _⟩ => ⟨S320000x1, .i32⟩
  | .hbm, ⟨93, _⟩ => ⟨S100000x256, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x256, .f32⟩
  | .hbm, ⟨99, _⟩ => ⟨S100000x256, .f32⟩
  | .hbm, ⟨100, _⟩ => ⟨S100000x256, .f32⟩
  | .hbm, ⟨101, _⟩ => ⟨S1x256, .f32⟩
  | .hbm, ⟨102, _⟩ => ⟨S100000x256, .f32⟩
  | .hbm, ⟨103, _⟩ => ⟨S100000x256, .f32⟩
  | .hbm, ⟨104, _⟩ => ⟨S_, .f32⟩
  | .hbm, ⟨105, _⟩ => ⟨S100000x256, .f32⟩
  | .hbm, ⟨106, _⟩ => ⟨S100000x256, .f32⟩
  | _, _ => ⟨S320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_16 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call5_cst : Ref sig .tc := ⟨.hbm, 104, rfl⟩
abbrev main_call5_v0 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S100000 : S_.BroadcastsInDim S100000 (![] : Fin 0 → Fin S100000.rank)
  bcast_S320000_S320000x1_0 : S320000.BroadcastsInDim S320000x1 (![0] : Fin 1 → Fin S320000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S320000x1_S320000_n_0_0_1_wf : ScatterDims.WF S100000 S320000x1 S320000 [] [0] [0] 1
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S100000x256_S256x256_S100000x256_1_0_0_1_n_n_wf : DotDims.WF S100000x256 S256x256 S100000x256 [1] [0] [0] [1] [] []

variable [Facts₀]

def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.Layer.lean ====
/-
  One dense layer of the graph convolution, as a function of whole arrays on the extended reals.

  Row `p` of the aggregated features is scaled by that node's inverse square-root in-degree (one number per
  row, kept as a column), the scaled row is multiplied by the 256 × 256 weight matrix, the bias row is added and the
  result is clamped below at zero:

      out[p, q] = max ( Σ_k (agg[p, k] · deg[p, 0]) · w[k, q]  +  b[0, q] ,  0 ).

  The sum ranges over the 256 input features. Nothing here depends on how the rows are tiled: a tile of 2000
  rows computes exactly these entries for its own rows.
-/
import Idealize.ShloMosaic.PureOps.Ideal
import Idealize.ShloMosaic.Lib.ValueIdx

noncomputable section

namespace Cert.GraphConv

open Idealize.ShloMosaic Idealize.ShloMosaic.ValueIdx
open scoped BigOperators

/-- Entry `(p, q)` of one dense layer: the degree-scaled row `p` of `agg` against column `q` of `w`, plus the bias,
    clamped below at the value of the zero word. -/
def denseAt (agg : FVec Ideal ⟨2, ![100000, 256]⟩ .f32) (deg : FVec Ideal ⟨2, ![100000, 1]⟩ .f32)
    (w : FVec Ideal ⟨2, ![256, 256]⟩ .f32) (b : FVec Ideal ⟨2, ![1, 256]⟩ .f32) (p : Fin 100000) (q : Fin 256) : EReal :=
  max ((∑ k : Fin 256, (agg (ix2 p k) * deg (ix2 p (0 : Fin 1))) * w (ix2 k q)) + b (ix2 (0 : Fin 1) q))
    (Ideal.ofBits .f32 0x00000000#32)

/-- The whole output array of one dense layer. -/
def dense (agg : FVec Ideal ⟨2, ![100000, 256]⟩ .f32) (deg : FVec Ideal ⟨2, ![100000, 1]⟩ .f32)
    (w : FVec Ideal ⟨2, ![256, 256]⟩ .f32) (b : FVec Ideal ⟨2, ![1, 256]⟩ .f32) : FVec Ideal ⟨2, ![100000, 256]⟩ .f32 :=
  fun i => denseAt agg deg w b (i 0) (i 1)

theorem dense_apply (agg : FVec Ideal ⟨2, ![100000, 256]⟩ .f32) (deg : FVec Ideal ⟨2, ![100000, 1]⟩ .f32)
    (w : FVec Ideal ⟨2, ![256, 256]⟩ .f32) (b : FVec Ideal ⟨2, ![1, 256]⟩ .f32) (p : Fin 100000) (q : Fin 256) :
    dense agg deg w b (ix2 p q) = denseAt agg deg w b p q := rfl

end Cert.GraphConv

end
-- ==== Proof.KernelHost.lean ====
/-
  The host side of the two-layer graph convolution, read as whole-array terms of the argument arrays.

  Before the first dense layer the program counts, for every node, the edges leaving it and the edges entering it
  (a scatter-add of ones over the edge list), keeps each count at least one and raises it to the power −1/2.  The
  factor of an edge's source node is fetched per edge (a row gather of the out-degree column at the source
  positions, negative positions wrapped by the node count), the feature row of the source is fetched the same way,
  the two are multiplied, and the products are summed into the row of the edge's target node (a scatter-add over
  the target positions).  The in-degree factors are kept as a column: the dense layer scales each aggregated row
  by its entry.  Between the two layers the same aggregation is applied to the first layer's output.

  This module names those terms and reads the buffer contents at the two region entries as these terms of the
  launch memory, operation by operation.
-/
import proofs.«167187_j37778532335671_1_alg».proof.Proof.Gen.KernelIdeal.Frame
import Idealize.ShloMosaic.Lib.StableHlo.Run
import Idealize.ShloMosaic.PureOps.Ideal
import proofs.«167187_j37778532335671_1_alg».proof.Proof.Layer

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-! ## The terms -/

/-- An edge list as the column of start positions a gather or a scatter reads. -/
def col (ix : IVec S320000 32) : IVec S320000x1 32 :=
  broadcastInDim S320000x1 ![0] bcast_S320000_S320000x1_0 ix

/-- One per edge. -/
def ones : FVec Ideal S320000 .f32 :=
  broadcastInDim S320000 ![] bcast_S_S320000 (constant (F := Ideal) S_ .f32 0x3F800000#32)

/-- For every node, (the number of edges whose listed end is that node, at least one) to the power −1/2. -/
def invSqrtCount (ix : IVec S320000 32) : FVec Ideal S100000 .f32 :=
  Host.powf
    (maximumf
      (Host.scatterAdd scatter_S100000_S320000x1_S320000_n_0_0_1
        (broadcastInDim S100000 ![] bcast_S_S100000 (constant (F := Ideal) S_ .f32 0x00000000#32)) (col ix) ones)
      (broadcastInDim S100000 ![] bcast_S_S100000 (constant (F := Ideal) S_ .f32 0x3F800000#32)))
    (broadcastInDim S100000 ![] bcast_S_S100000 (constant (F := Ideal) S_ .f32 0xBF000000#32))

/-- Positions with the negative ones moved up by the node count. -/
def wrapped (ix : IVec S320000 32) : IVec S320000 32 :=
  select (cmpi .slt ix (broadcastInDim S320000 ![] bcast_S_S320000 (constantI S_ 32 0#32)))
    (addi ix (broadcastInDim S320000 ![] bcast_S_S320000 (constantI S_ 32 100000#32))) ix

/-- The degree factors of an edge list's ends, as a column. -/
def degColumn (ix : IVec S320000 32) : FVec Ideal S100000x1 .f32 :=
  shapeCast S100000x1 (invSqrtCount ix) shapeCasts_S100000_S100000x1

/-- Per edge, the out-degree factor of its source node. -/
def outScale (src : IVec S320000 32) : FVec Ideal S320000x1 .f32 :=
  Host.gather gather_S100000x1_S320000x1_S320000x1_1_0_n_n_0_1_11 (degColumn src) (col (wrapped src))

/-- The aggregation with the per-edge factors given: per edge the source's feature row times the edge's factor, summed
    into the target's row. -/
def aggregateWith (src dst : IVec S320000 32) (h : FVec Ideal S100000x256 .f32) (sc : FVec Ideal S320000x1 .f32) :
    FVec Ideal S100000x256 .f32 :=
  Host.scatterAdd scatter_S100000x256_S320000x1_S320000x256_1_0_0_1
    (broadcastInDim S100000x256 ![] bcast_S_S100000x256 (constant (F := Ideal) S_ .f32 0x00000000#32)) (col dst)
    (mulf (Host.gather gather_S100000x256_S320000x1_S320000x256_1_0_n_n_0_1_1256 h (col (wrapped src)))
      (broadcastInDim S320000x256 ![0, 1] bcast_S320000x1_S320000x256_0_1 sc))

/-- The aggregation: the per-edge factor is the out-degree factor of the edge's source node. -/
def aggregate (src dst : IVec S320000 32) (h : FVec Ideal S100000x256 .f32) : FVec Ideal S100000x256 .f32 :=
  aggregateWith src dst h (outScale src)

/-- A bias vector as the one-row array the dense layer reads. -/
def biasRow (b : FVec Ideal S256 .f32) : FVec Ideal S1x256 .f32 :=
  shapeCast S1x256 b shapeCasts_S256_S1x256

/-- One layer of the kernel program: the aggregation, then the dense layer over it with the in-degree column. -/
def layer (src dst : IVec S320000 32) (h : FVec Ideal S100000x256 .f32) (W : FVec Ideal S256x256 .f32) (b : FVec Ideal S256 .f32) :
    FVec Ideal S100000x256 .f32 :=
  Cert.GraphConv.dense (aggregate src dst h) (degColumn dst) W (biasRow b)

/-! ## The contents at the first region's entry -/

variable (m : (ℓ : Loc nD τ sig) → Buf (Elt Ideal) ℓ) (ρ : Dev nD → PrngReg)

theorem entry0_agg (c : Dev nD) :
    V1 m ρ c main_v35 = aggregate (m ((c : Thread nD τ).loc main_arg0)) (m ((c : Thread nD τ).loc main_arg1)) (m ((c : Thread nD τ).loc main_arg2)) := by
  show StableHlo.after hostOps0 (W0 m ρ c) (Proc.devRef .tc main_v35) = _
  after_results_simp <;> rfl

theorem entry0_deg (c : Dev nD) : V1 m ρ c main_v16 = degColumn (m ((c : Thread nD τ).loc main_arg1)) := by
  show StableHlo.after hostOps0 (W0 m ρ c) (Proc.devRef .tc main_v16) = _
  after_results_simp <;> rfl

theorem entry0_w (c : Dev nD) : V1 m ρ c main_arg3 = m ((c : Thread nD τ).loc main_arg3) := by
  show StableHlo.after hostOps0 (W0 m ρ c) (Proc.devRef .tc main_arg3) = _
  after_results_simp <;> rfl

theorem entry0_b (c : Dev nD) :
    V1 m ρ c main_v36 = biasRow (m ((c : Thread nD τ).loc main_arg4)) := by
  show StableHlo.after hostOps0 (W0 m ρ c) (Proc.devRef .tc main_v36) = _
  after_results_simp <;> rfl

theorem entry0_outScale (c : Dev nD) : V1 m ρ c main_v23 = outScale (m ((c : Thread nD τ).loc main_arg0)) := by
  show StableHlo.after hostOps0 (W0 m ρ c) (Proc.devRef .tc main_v23) = _
  after_results_simp <;> rfl

theorem entry0_src (c : Dev nD) : V1 m ρ c main_arg0 = m ((c : Thread nD τ).loc main_arg0) := by
  show StableHlo.after hostOps0 (W0 m ρ c) (Proc.devRef .tc main_arg0) = _
  after_results_simp <;> rfl

theorem entry0_dst (c : Dev nD) : V1 m ρ c main_arg1 = m ((c : Thread nD τ).loc main_arg1) := by
  show StableHlo.after hostOps0 (W0 m ρ c) (Proc.devRef .tc main_arg1) = _
  after_results_simp <;> rfl

theorem entry0_w2 (c : Dev nD) : V1 m ρ c main_arg5 = m ((c : Thread nD τ).loc main_arg5) := by
  show StableHlo.after hostOps0 (W0 m ρ c) (Proc.devRef .tc main_arg5) = _
  after_results_simp <;> rfl

theorem entry0_b2 (c : Dev nD) : V1 m ρ c main_arg6 = m ((c : Thread nD τ).loc main_arg6) := by
  show StableHlo.after hostOps0 (W0 m ρ c) (Proc.devRef .tc main_arg6) = _
  after_results_simp <;> rfl

/-! ## The contents at the second region's entry

The host operations between the regions read the edge lists, the per-edge factors computed before the first region and
the first region's output; the first region leaves every buffer but its output as it found it. -/

/-- The second aggregation, over whatever the buffers hold when the first region has ended. -/
theorem between_agg (W : Valuation τ sig (Elt Ideal)) :
    StableHlo.after hostOps1 W (Proc.devRef .tc main_v49)
      = aggregateWith (W (Proc.devRef .tc main_arg0)) (W (Proc.devRef .tc main_arg1)) (W (Proc.devRef .tc main_v37)) (W (Proc.devRef .tc main_v23)) := by
  after_results_simp <;> rfl

theorem between_deg (W : Valuation τ sig (Elt Ideal)) :
    StableHlo.after hostOps1 W (Proc.devRef .tc main_v16) = W (Proc.devRef .tc main_v16) := by
  after_results_simp <;> rfl

theorem between_w (W : Valuation τ sig (Elt Ideal)) :
    StableHlo.after hostOps1 W (Proc.devRef .tc main_arg5) = W (Proc.devRef .tc main_arg5) := by
  after_results_simp <;> rfl

theorem between_b (W : Valuation τ sig (Elt Ideal)) :
    StableHlo.after hostOps1 W (Proc.devRef .tc main_v50)
      = biasRow (W (Proc.devRef .tc main_arg6)) := by
  after_results_simp <;> rfl

/-- The first region's output array is what its write-backs leave. -/
theorem exit0_out (c : Dev nD) : W2 m ρ c (Proc.devRef .tc main_v37) = (dat0 (V1 m ρ) c).arrAt 4 cfg0.N :=
  W2_arr m ρ c 4

/-- The in-degree column, an input of the first region, is as the region found it. -/
theorem exit0_deg (c : Dev nD) : W2 m ρ c (Proc.devRef .tc main_v16) = degColumn (m ((c : Thread nD τ).loc main_arg1)) :=
  (W2_arr m ρ c 1).trans (((dat0 (V1 m ρ) c).arrAt_in 1 rfl _).trans ((A_eq0 (V1 m ρ) c 1).trans (entry0_deg m ρ c)))

theorem exit0_src (c : Dev nD) : W2 m ρ c (Proc.devRef .tc main_arg0) = m ((c : Thread nD τ).loc main_arg0) :=
  (W2_of_ne m ρ c main_arg0 (by decide)).trans (entry0_src m ρ c)

theorem exit0_dst (c : Dev nD) : W2 m ρ c (Proc.devRef .tc main_arg1) = m ((c : Thread nD τ).loc main_arg1) :=
  (W2_of_ne m ρ c main_arg1 (by decide)).trans (entry0_dst m ρ c)

theorem exit0_outScale (c : Dev nD) : W2 m ρ c (Proc.devRef .tc main_v23) = outScale (m ((c : Thread nD τ).loc main_arg0)) :=
  (W2_of_ne m ρ c main_v23 (by decide)).trans (entry0_outScale m ρ c)

theorem exit0_w2 (c : Dev nD) : W2 m ρ c (Proc.devRef .tc main_arg5) = m ((c : Thread nD τ).loc main_arg5) :=
  (W2_of_ne m ρ c main_arg5 (by decide)).trans (entry0_w2 m ρ c)

theorem exit0_b2 (c : Dev nD) : W2 m ρ c (Proc.devRef .tc main_arg6) = m ((c : Thread nD τ).loc main_arg6) :=
  (W2_of_ne m ρ c main_arg6 (by decide)).trans (entry0_b2 m ρ c)

theorem entry1_agg (c : Dev nD) :
    V3 m ρ c main_v49 = aggregate (m ((c : Thread nD τ).loc main_arg0)) (m ((c : Thread nD τ).loc main_arg1)) ((dat0 (V1 m ρ) c).arrAt 4 cfg0.N) := by
  show StableHlo.after hostOps1 (W2 m ρ c) (Proc.devRef .tc main_v49) = _
  rw [between_agg, exit0_src, exit0_dst, exit0_out, exit0_outScale]
  rfl

theorem entry1_deg (c : Dev nD) : V3 m ρ c main_v16 = degColumn (m ((c : Thread nD τ).loc main_arg1)) := by
  show StableHlo.after hostOps1 (W2 m ρ c) (Proc.devRef .tc main_v16) = _
  rw [between_deg, exit0_deg]

theorem entry1_w (c : Dev nD) : V3 m ρ c main_arg5 = m ((c : Thread nD τ).loc main_arg5) := by
  show StableHlo.after hostOps1 (W2 m ρ c) (Proc.devRef .tc main_arg5) = _
  rw [between_w, exit0_w2]

theorem entry1_b (c : Dev nD) :
    V3 m ρ c main_v50 = biasRow (m ((c : Thread nD τ).loc main_arg6)) := by
  show StableHlo.after hostOps1 (W2 m ρ c) (Proc.devRef .tc main_v50) = _
  rw [between_b, exit0_b2]

/-- The returned array is what the second region's write-backs leave. -/
theorem exit1_out (c : Dev nD) : W4 m ρ c (Proc.devRef .tc main_v51) = (dat1 (V3 m ρ) c).arrAt 4 cfg1.N :=
  W4_arr m ρ c 4

end Cert.KernelIdeal.HostValue

end
-- ==== Proof.Region0.lean ====
import proofs.«167187_j37778532335671_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.ValueLayout
import proofs.«167187_j37778532335671_1_alg».proof.Proof.Layer

/-!
  The first dense layer, read off the tiled program.

  The rows are cut into 50 tiles of 2000. A tile holds 2000 rows of the aggregated features and the same 2000
  entries of the degree column; the weight matrix and the bias row are the same for every tile. On a tile the body
  computes  max ( Σ_k (agg[p, k] · deg[p, 0]) · w[k, q] + b[0, q] , 0 )  for its own rows p and every column q: the
  product of the scaled tile with the weights is a sum over the 256 input features started from zero, and rounding to
  the narrower format is the identity on the extended reals. Row r of the whole array lies in tile r / 2000, every tile
  is written back, so the tiles together are the whole array and the array is the dense layer of the four inputs.
-/

set_option maxRecDepth 16384

noncomputable section

namespace Cert.KernelIdeal.RegionValue

namespace R0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The product's index maps, axis by axis -/

/-- The left operand's row is the result's row. -/
theorem lhs_tile_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- The left operand's column is the summation index. -/
theorem lhs_tile_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q

/-- The right operand's row is the summation index. -/
theorem rhs_tile_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q

/-- The right operand's column is the result's column. -/
theorem rhs_tile_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-! ## One column repeated along the rows' entries -/

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's result at an entry of the tile -/

/-- The product of the scaled tile with the weights, started from zero, at an entry: the sum over the 256 features. -/
theorem tile_product_apply (y0 : FVec Ideal S2000x256 .bf16) (y1 : FVec Ideal S256x256 .bf16) (p : Fin 2000) (q : Fin 256) :
    matmul dot_S2000x256_S256x256_S2000x256_1_0_0_1_n_n none y0 y1 (constant (F := Ideal) S2000x256 .f32 0x00000000#32) (ix2 p q)
      = ∑ k : Fin 256, y0 (ix2 p k) * y1 (ix2 k q) := by
  show FloatOps.matmul dot_S2000x256_S256x256_S2000x256_1_0_0_1_n_n none y0 y1 (constant (F := Ideal) S2000x256 .f32 0x00000000#32) (ix2 p q) = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_tile_0 _ _
    | ⟨1, _⟩ => exact (lhs_tile_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_tile_0 _ _).trans hk
    | ⟨1, _⟩ => exact rhs_tile_1 _ _)
  rw [el, er]

/-- The body's result at entry `(p, q)` of a tile, from the four blocks it loads. -/
theorem tile_apply (x0 : Vec Ideal S2000x256 .f32) (x1 : Vec Ideal S2000x1 .f32) (x2 : Vec Ideal S256x256 .f32) (x3 : Vec Ideal S1x256 .f32)
    (p : Fin 2000) (q : Fin 256) :
    k0_pay1 (F := Ideal) x0 x1 x2 x3 (ix2 p q)
      = max ((∑ k : Fin 256, (x0 (ix2 p k) * x1 (ix2 p (0 : Fin 1))) * x2 (ix2 k q)) + x3 (ix2 (0 : Fin 1) q)) (Ideal.ofBits .f32 0x00000000#32) := by
  unfold k0_pay1
  rw [shapeCast_self, shapeCast_self, shapeCast_self, maximumf_apply, addf_apply, broadcast_apply, tile_product_apply,
    broadcastTo_1b_ab_apply]
  refine congrArg (fun z => max (z + x3 (ix2 (0 : Fin 1) q)) (Ideal.ofBits .f32 0x00000000#32)) ?_
  refine Finset.sum_congr rfl fun k _ => ?_
  rw [truncf_apply, truncf_apply, mulf_apply, broadcastTo_a1_ab_apply]

/-! ## From the tiles to the whole array -/

variable (V : (c : Dev nD) → (b : Ref sig .tc) → Buf (Elt Ideal) ((c : Thread nD τ).loc b))

/-- The zero offset of a whole-block load, as a function. -/
theorem zero_offset : (![0, 0] : Fin 2 → Nat) = fun _ => 0 := funext fun a => by fin_cases a <;> rfl

/-- The dense layer of the four arrays the region finds on entry. -/
abbrev layer0 (c : Dev nD) : FVec Ideal ⟨2, ![100000, 256]⟩ .f32 :=
  Cert.GraphConv.dense (V c main_v35) (V c main_v16) (V c main_arg3) (V c main_v36)

/-- Which block of its array each window holds at grid point `t`: the features, the degree column and the result
    move down the rows with `t`, the weights and the bias stay at their one block. -/
theorem tile_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The feature tile at point `t` is rows `2000 t … 2000 t + 1999` of the feature array. -/
theorem agg_tile_apply (c : Dev nD) (t : Fin cfg0.N) (x : S2000x256.Idx) (k : S100000x256.Idx)
    (hk0 : (k 0).val = 2000 * t.val + (x 0).val) (hk1 : (k 1).val = (x 1).val) :
    (iblk0 V c 0 t : Vec Ideal S2000x256 .f32) x = (V c main_v35 : S100000x256.Idx → Elt Ideal .f32) k := by
  obtain ⟨e0, e1, -⟩ := tile_index0 t
  unfold iblk0
  rw [View.read_apply]
  show V c main_v35 _ = V c main_v35 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 256 + 1 * (x 1).val = (k 1).val; rw [e1, hk1]; omega

/-- The degree tile at point `t` is the same rows of the degree column. -/
theorem deg_tile_apply (c : Dev nD) (t : Fin cfg0.N) (x : S2000x1.Idx) (k : S100000x1.Idx)
    (hk0 : (k 0).val = 2000 * t.val + (x 0).val) (hk1 : (k 1).val = (x 1).val) :
    (iblk0 V c 1 t : Vec Ideal S2000x1 .f32) x = (V c main_v16 : S100000x1.Idx → Elt Ideal .f32) k := by
  obtain ⟨-, -, e0, e1, -⟩ := tile_index0 t
  unfold iblk0
  rw [View.read_apply]
  show V c main_v16 _ = V c main_v16 _
  congr 1
  funext a
  apply Fin.ext
  match a with
  | ⟨0, _⟩ => show win0_1.index t (0 : Fin 2) * 2000 + 1 * (x 0).val = (k 0).val; rw [e0, hk0]; omega
  | ⟨1, _⟩ => show win0_1.index t (1 : Fin 2) * 1 + 1 * (x 1).val = (k 1).val; rw [e1, hk1]; omega

/-- The weight block at every point is the whole weight matrix. -/
theorem weight_tile_apply (c : Dev nD) (t : Fin cfg0.N) (x : S256x256.Idx) :
    (iblk0 V c 2 t : Vec Ideal S256x256 .f32) x = (V c main_arg3 : S256x256.Idx → Elt Ideal .f32) x := by
  obtain ⟨-, -, -, -, e0, e1, -⟩ := tile_index0 t
  unfold iblk0
  rw [View.read_apply]
  show V c main_arg3 _ = V c main_arg3 _
  congr 1
  funext a
  apply Fin.ext
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega

/-- The bias block at every point is the whole bias row. -/
theorem bias_tile_apply (c : Dev nD) (t : Fin cfg0.N) (x : S1x256.Idx) :
    (iblk0 V c 3 t : Vec Ideal S1x256 .f32) x = (V c main_v36 : S1x256.Idx → Elt Ideal .f32) x := by
  obtain ⟨-, -, -, -, -, -, e0, e1, -⟩ := tile_index0 t
  unfold iblk0
  rw [View.read_apply]
  show V c main_v36 _ = V c main_v36 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 256 + 1 * (x 1).val = (x 1).val; rw [e1]; omega

/-- The grid has 50 points. -/
theorem point_lt (t : Fin cfg0.N) : t.val < 50 := t.isLt

/-- What grid point `t` writes back is tile `t` of the dense layer. -/
theorem flushed0_eq (c : Dev nD) (t : Fin cfg0.N) :
    (dat0 (F := Ideal) V c).flushed 4 t = ((cfg0.win 4).blk t).view.read (Elt Ideal) (layer0 V c) := by
  show (cfg0.win 4).cut (grid0.coords t) ((dat0 (F := Ideal) V c).after 4 t) = _
  rw [after0_4]
  unfold out0_4
  rw [View.canon_unit_zero zero_offset]
  simp only [View.ld_unit_zero (S := S2000x256) zero_offset, View.ld_unit_zero (S := S2000x1) zero_offset,
    View.ld_unit_zero (S := S256x256) zero_offset, View.ld_unit_zero (S := S1x256) zero_offset]
  obtain ⟨-, -, -, -, -, -, -, -, e0, e1⟩ := tile_index0 t
  have ht := point_lt t
  refine funext fun (j : S2000x256.Idx) => ?_
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 3 t) (ix2 p q)
    = layer0 V c (((cfg0.win 4).blk t).view.emb (ix2 p q))
  refine (tile_apply (iblk0 V c 0 t) (iblk0 V c 1 t) (iblk0 V c 2 t) (iblk0 V c 3 t) p q).trans ?_
  have hp := p.isLt
  have hr0 : (((cfg0.win 4).blk t).view.emb (ix2 p q)) 0 = (⟨2000 * t.val + p.val, by omega⟩ : Fin 100000) :=
    Fin.ext (by show win0_4.index t (0 : Fin 2) * 2000 + 1 * p.val = 2000 * t.val + p.val; rw [e0]; omega)
  have hr1 : (((cfg0.win 4).blk t).view.emb (ix2 p q)) 1 = q :=
    Fin.ext (by show win0_4.index t (1 : Fin 2) * 256 + 1 * q.val = q.val; rw [e1]; omega)
  show _ = Cert.GraphConv.denseAt (V c main_v35) (V c main_v16) (V c main_arg3) (V c main_v36)
    ((((cfg0.win 4).blk t).view.emb (ix2 p q)) 0) ((((cfg0.win 4).blk t).view.emb (ix2 p q)) 1)
  rw [hr0, hr1]
  unfold Cert.GraphConv.denseAt
  rw [deg_tile_apply V c t (ix2 p (0 : Fin 1)) (ix2 (⟨2000 * t.val + p.val, by omega⟩ : Fin 100000) (0 : Fin 1)) rfl rfl,
    bias_tile_apply V c t (ix2 (0 : Fin 1) q)]
  refine congrArg (fun z => max (z + (V c main_v36 : S1x256.Idx → Elt Ideal .f32) (ix2 (0 : Fin 1) q)) (Ideal.ofBits .f32 0x00000000#32)) ?_
  refine Finset.sum_congr rfl fun k _ => ?_
  rw [agg_tile_apply V c t (ix2 p k) (ix2 (⟨2000 * t.val + p.val, by omega⟩ : Fin 100000) k) rfl rfl,
    weight_tile_apply V c t (ix2 k q)]

/-- An entry of the array is in point `t`'s tile iff each coordinate is in the tile's range on its axis. -/
theorem mem_tile0 (t : Fin cfg0.N) (i : S100000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v37).slice (win0_4.rect t)).set ↔ _
  rw [View.set_slice_whole, Rect.mem_set_unit]
  exact Iff.rfl

/-- Every entry of the array is in a tile that is written back: row `r` is in tile `r / 2000`. -/
theorem covered0 (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  have hd : (i 0).val / 2000 < 50 := by omega
  obtain ⟨-, -, -, -, -, -, -, -, e0, e1⟩ := tile_index0 ⟨(i 0).val / 2000, hd⟩
  refine ⟨⟨(i 0).val / 2000, hd⟩, flush0_4 _, ?_⟩
  rw [mem_tile0]
  intro a
  match a with
  | ⟨0, _⟩ =>
    show win0_4.index ⟨(i 0).val / 2000, hd⟩ (0 : Fin 2) * 2000 ≤ (i 0).val ∧ (i 0).val < win0_4.index ⟨(i 0).val / 2000, hd⟩ (0 : Fin 2) * 2000 + 2000
    rw [e0]
    show (i 0).val / 2000 * 2000 ≤ (i 0).val ∧ (i 0).val < (i 0).val / 2000 * 2000 + 2000
    omega
  | ⟨1, _⟩ =>
    show win0_4.index ⟨(i 0).val / 2000, hd⟩ (1 : Fin 2) * 256 ≤ (i 1).val ∧ (i 1).val < win0_4.index ⟨(i 0).val / 2000, hd⟩ (1 : Fin 2) * 256 + 256
    rw [e1]
    omega

end R0

open Cert.KernelIdeal Cert.KernelIdeal.Gen Idealize.ShloMosaic Idealize.ShloMosaic.TcCoe Idealize.SL.Sem

/-- The result array after the region is the dense layer of the four arrays the region found. -/
theorem final0 (V : (c : Dev nD) → (b : Ref sig .tc) → Buf (Elt Ideal) ((c : Thread nD τ).loc b)) (c : Dev nD) :
    (dat0 (F := Ideal) V c).arrAt 4 cfg0.N
      = Cert.GraphConv.dense (V c main_v35) (V c main_v16) (V c main_arg3) (V c main_v36) :=
  (dat0 (F := Ideal) V c).arrAt_eq_of_cover 4 (R0.layer0 V c) (fun t _ => R0.flushed0_eq V c t) R0.covered0

end Cert.KernelIdeal.RegionValue

end
-- ==== Proof.Region1.lean ====
import proofs.«167187_j37778532335671_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.ValueLayout
import proofs.«167187_j37778532335671_1_alg».proof.Proof.Layer

/-!
  The second dense layer, read off the tiled program.

  The rows are cut into 50 tiles of 2000. A tile holds 2000 rows of the aggregated features and the same 2000
  entries of the degree column; the weight matrix and the bias row are the same for every tile. On a tile the body
  computes  max ( Σ_k (agg[p, k] · deg[p, 0]) · w[k, q] + b[0, q] , 0 )  for its own rows p and every column q: the
  product of the scaled tile with the weights is a sum over the 256 input features started from zero, and rounding to
  the narrower format is the identity on the extended reals. Row r of the whole array lies in tile r / 2000, every tile
  is written back, so the tiles together are the whole array and the array is the dense layer of the four inputs.
-/

set_option maxRecDepth 16384

noncomputable section

namespace Cert.KernelIdeal.RegionValue

namespace R1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The product's index maps, axis by axis -/

/-- The left operand's row is the result's row. -/
theorem lhs_tile_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- The left operand's column is the summation index. -/
theorem lhs_tile_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q

/-- The right operand's row is the summation index. -/
theorem rhs_tile_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q

/-- The right operand's column is the result's column. -/
theorem rhs_tile_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-! ## One column repeated along the rows' entries -/

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's result at an entry of the tile -/

/-- The product of the scaled tile with the weights, started from zero, at an entry: the sum over the 256 features. -/
theorem tile_product_apply (y0 : FVec Ideal S2000x256 .bf16) (y1 : FVec Ideal S256x256 .bf16) (p : Fin 2000) (q : Fin 256) :
    matmul dot_S2000x256_S256x256_S2000x256_1_0_0_1_n_n none y0 y1 (constant (F := Ideal) S2000x256 .f32 0x00000000#32) (ix2 p q)
      = ∑ k : Fin 256, y0 (ix2 p k) * y1 (ix2 k q) := by
  show FloatOps.matmul dot_S2000x256_S256x256_S2000x256_1_0_0_1_n_n none y0 y1 (constant (F := Ideal) S2000x256 .f32 0x00000000#32) (ix2 p q) = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_tile_0 _ _
    | ⟨1, _⟩ => exact (lhs_tile_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_tile_0 _ _).trans hk
    | ⟨1, _⟩ => exact rhs_tile_1 _ _)
  rw [el, er]

/-- The body's result at entry `(p, q)` of a tile, from the four blocks it loads. -/
theorem tile_apply (x0 : Vec Ideal S2000x256 .f32) (x1 : Vec Ideal S2000x1 .f32) (x2 : Vec Ideal S256x256 .f32) (x3 : Vec Ideal S1x256 .f32)
    (p : Fin 2000) (q : Fin 256) :
    k1_pay1 (F := Ideal) x0 x1 x2 x3 (ix2 p q)
      = max ((∑ k : Fin 256, (x0 (ix2 p k) * x1 (ix2 p (0 : Fin 1))) * x2 (ix2 k q)) + x3 (ix2 (0 : Fin 1) q)) (Ideal.ofBits .f32 0x00000000#32) := by
  unfold k1_pay1
  rw [shapeCast_self, shapeCast_self, shapeCast_self, maximumf_apply, addf_apply, broadcast_apply, tile_product_apply,
    broadcastTo_1b_ab_apply]
  refine congrArg (fun z => max (z + x3 (ix2 (0 : Fin 1) q)) (Ideal.ofBits .f32 0x00000000#32)) ?_
  refine Finset.sum_congr rfl fun k _ => ?_
  rw [truncf_apply, truncf_apply, mulf_apply, broadcastTo_a1_ab_apply]

/-! ## From the tiles to the whole array -/

variable (V : (c : Dev nD) → (b : Ref sig .tc) → Buf (Elt Ideal) ((c : Thread nD τ).loc b))

/-- The zero offset of a whole-block load, as a function. -/
theorem zero_offset : (![0, 0] : Fin 2 → Nat) = fun _ => 0 := funext fun a => by fin_cases a <;> rfl

/-- The dense layer of the four arrays the region finds on entry. -/
abbrev layer1 (c : Dev nD) : FVec Ideal ⟨2, ![100000, 256]⟩ .f32 :=
  Cert.GraphConv.dense (V c main_v49) (V c main_v16) (V c main_arg5) (V c main_v50)

/-- Which block of its array each window holds at grid point `t`: the features, the degree column and the result
    move down the rows with `t`, the weights and the bias stay at their one block. -/
theorem tile_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature tile at point `t` is rows `2000 t … 2000 t + 1999` of the feature array. -/
theorem agg_tile_apply (c : Dev nD) (t : Fin cfg1.N) (x : S2000x256.Idx) (k : S100000x256.Idx)
    (hk0 : (k 0).val = 2000 * t.val + (x 0).val) (hk1 : (k 1).val = (x 1).val) :
    (iblk1 V c 0 t : Vec Ideal S2000x256 .f32) x = (V c main_v49 : S100000x256.Idx → Elt Ideal .f32) k := by
  obtain ⟨e0, e1, -⟩ := tile_index1 t
  unfold iblk1
  rw [View.read_apply]
  show V c main_v49 _ = V c main_v49 _
  congr 1
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 256 + 1 * (x 1).val = (k 1).val; rw [e1, hk1]; omega

/-- The degree tile at point `t` is the same rows of the degree column. -/
theorem deg_tile_apply (c : Dev nD) (t : Fin cfg1.N) (x : S2000x1.Idx) (k : S100000x1.Idx)
    (hk0 : (k 0).val = 2000 * t.val + (x 0).val) (hk1 : (k 1).val = (x 1).val) :
    (iblk1 V c 1 t : Vec Ideal S2000x1 .f32) x = (V c main_v16 : S100000x1.Idx → Elt Ideal .f32) k := by
  obtain ⟨-, -, e0, e1, -⟩ := tile_index1 t
  unfold iblk1
  rw [View.read_apply]
  show V c main_v16 _ = V c main_v16 _
  congr 1
  funext a
  apply Fin.ext
  match a with
  | ⟨0, _⟩ => show win1_1.index t (0 : Fin 2) * 2000 + 1 * (x 0).val = (k 0).val; rw [e0, hk0]; omega
  | ⟨1, _⟩ => show win1_1.index t (1 : Fin 2) * 1 + 1 * (x 1).val = (k 1).val; rw [e1, hk1]; omega

/-- The weight block at every point is the whole weight matrix. -/
theorem weight_tile_apply (c : Dev nD) (t : Fin cfg1.N) (x : S256x256.Idx) :
    (iblk1 V c 2 t : Vec Ideal S256x256 .f32) x = (V c main_arg5 : S256x256.Idx → Elt Ideal .f32) x := by
  obtain ⟨-, -, -, -, e0, e1, -⟩ := tile_index1 t
  unfold iblk1
  rw [View.read_apply]
  show V c main_arg5 _ = V c main_arg5 _
  congr 1
  funext a
  apply Fin.ext
  match a with
  | ⟨0, _⟩ => show win1_2.index t (0 : Fin 2) * 256 + 1 * (x 0).val = (x 0).val; rw [e0]; omega
  | ⟨1, _⟩ => show win1_2.index t (1 : Fin 2) * 256 + 1 * (x 1).val = (x 1).val; rw [e1]; omega

/-- The bias block at every point is the whole bias row. -/
theorem bias_tile_apply (c : Dev nD) (t : Fin cfg1.N) (x : S1x256.Idx) :
    (iblk1 V c 3 t : Vec Ideal S1x256 .f32) x = (V c main_v50 : S1x256.Idx → Elt Ideal .f32) x := by
  obtain ⟨-, -, -, -, -, -, e0, e1, -⟩ := tile_index1 t
  unfold iblk1
  rw [View.read_apply]
  show V c main_v50 _ = V c main_v50 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 256 + 1 * (x 1).val = (x 1).val; rw [e1]; omega

/-- The grid has 50 points. -/
theorem point_lt (t : Fin cfg1.N) : t.val < 50 := t.isLt

/-- What grid point `t` writes back is tile `t` of the dense layer. -/
theorem flushed1_eq (c : Dev nD) (t : Fin cfg1.N) :
    (dat1 (F := Ideal) V c).flushed 4 t = ((cfg1.win 4).blk t).view.read (Elt Ideal) (layer1 V c) := by
  show (cfg1.win 4).cut (grid1.coords t) ((dat1 (F := Ideal) V c).after 4 t) = _
  rw [after1_4]
  unfold out1_4
  rw [View.canon_unit_zero zero_offset]
  simp only [View.ld_unit_zero (S := S2000x256) zero_offset, View.ld_unit_zero (S := S2000x1) zero_offset,
    View.ld_unit_zero (S := S256x256) zero_offset, View.ld_unit_zero (S := S1x256) zero_offset]
  obtain ⟨-, -, -, -, -, -, -, -, e0, e1⟩ := tile_index1 t
  have ht := point_lt t
  refine funext fun (j : S2000x256.Idx) => ?_
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (iblk1 V c 3 t) (ix2 p q)
    = layer1 V c (((cfg1.win 4).blk t).view.emb (ix2 p q))
  refine (tile_apply (iblk1 V c 0 t) (iblk1 V c 1 t) (iblk1 V c 2 t) (iblk1 V c 3 t) p q).trans ?_
  have hp := p.isLt
  have hr0 : (((cfg1.win 4).blk t).view.emb (ix2 p q)) 0 = (⟨2000 * t.val + p.val, by omega⟩ : Fin 100000) :=
    Fin.ext (by show win1_4.index t (0 : Fin 2) * 2000 + 1 * p.val = 2000 * t.val + p.val; rw [e0]; omega)
  have hr1 : (((cfg1.win 4).blk t).view.emb (ix2 p q)) 1 = q :=
    Fin.ext (by show win1_4.index t (1 : Fin 2) * 256 + 1 * q.val = q.val; rw [e1]; omega)
  show _ = Cert.GraphConv.denseAt (V c main_v49) (V c main_v16) (V c main_arg5) (V c main_v50)
    ((((cfg1.win 4).blk t).view.emb (ix2 p q)) 0) ((((cfg1.win 4).blk t).view.emb (ix2 p q)) 1)
  rw [hr0, hr1]
  unfold Cert.GraphConv.denseAt
  rw [deg_tile_apply V c t (ix2 p (0 : Fin 1)) (ix2 (⟨2000 * t.val + p.val, by omega⟩ : Fin 100000) (0 : Fin 1)) rfl rfl,
    bias_tile_apply V c t (ix2 (0 : Fin 1) q)]
  refine congrArg (fun z => max (z + (V c main_v50 : S1x256.Idx → Elt Ideal .f32) (ix2 (0 : Fin 1) q)) (Ideal.ofBits .f32 0x00000000#32)) ?_
  refine Finset.sum_congr rfl fun k _ => ?_
  rw [agg_tile_apply V c t (ix2 p k) (ix2 (⟨2000 * t.val + p.val, by omega⟩ : Fin 100000) k) rfl rfl,
    weight_tile_apply V c t (ix2 k q)]

/-- An entry of the array is in point `t`'s tile iff each coordinate is in the tile's range on its axis. -/
theorem mem_tile1 (t : Fin cfg1.N) (i : S100000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v51).slice (win1_4.rect t)).set ↔ _
  rw [View.set_slice_whole, Rect.mem_set_unit]
  exact Iff.rfl

/-- Every entry of the array is in a tile that is written back: row `r` is in tile `r / 2000`. -/
theorem covered1 (i : S100000x256.Idx) :
    ∃ t : Fin cfg1.N, (cfg1.win 4).flush t = true ∧ i ∈ ((cfg1.win 4).blk t).view.set := by
  have hi0 : (i 0).val < 100000 := (i 0).isLt
  have hi1 : (i 1).val < 256 := (i 1).isLt
  have hd : (i 0).val / 2000 < 50 := by omega
  obtain ⟨-, -, -, -, -, -, -, -, e0, e1⟩ := tile_index1 ⟨(i 0).val / 2000, hd⟩
  refine ⟨⟨(i 0).val / 2000, hd⟩, flush1_4 _, ?_⟩
  rw [mem_tile1]
  intro a
  match a with
  | ⟨0, _⟩ =>
    show win1_4.index ⟨(i 0).val / 2000, hd⟩ (0 : Fin 2) * 2000 ≤ (i 0).val ∧ (i 0).val < win1_4.index ⟨(i 0).val / 2000, hd⟩ (0 : Fin 2) * 2000 + 2000
    rw [e0]
    show (i 0).val / 2000 * 2000 ≤ (i 0).val ∧ (i 0).val < (i 0).val / 2000 * 2000 + 2000
    omega
  | ⟨1, _⟩ =>
    show win1_4.index ⟨(i 0).val / 2000, hd⟩ (1 : Fin 2) * 256 ≤ (i 1).val ∧ (i 1).val < win1_4.index ⟨(i 0).val / 2000, hd⟩ (1 : Fin 2) * 256 + 256
    rw [e1]
    omega

end R1

open Cert.KernelIdeal Cert.KernelIdeal.Gen Idealize.ShloMosaic Idealize.ShloMosaic.TcCoe Idealize.SL.Sem

/-- The result array after the region is the dense layer of the four arrays the region found. -/
theorem final1 (V : (c : Dev nD) → (b : Ref sig .tc) → Buf (Elt Ideal) ((c : Thread nD τ).loc b)) (c : Dev nD) :
    (dat1 (F := Ideal) V c).arrAt 4 cfg1.N
      = Cert.GraphConv.dense (V c main_v49) (V c main_v16) (V c main_arg5) (V c main_v50) :=
  (dat1 (F := Ideal) V c).arrAt_eq_of_cover 4 (R1.layer1 V c) (fun t _ => R1.flushed1_eq V c t) R1.covered1

end Cert.KernelIdeal.RegionValue

end
-- ==== Proof.KernelValue.lean ====
/-
  What the kernel program returns, as a term of its arguments.

  The run ends with the returned array at what the second region's write-backs leave.  Each region's fifty blocks of
  2000 rows tile the 100000 rows, and block by block the body computes the dense layer of its input blocks, so a
  region's output array is the dense layer of the arrays the region finds.  The second region finds the aggregation of
  the first region's output (the host operations between the regions), the first the aggregation of the input
  features; both find the same in-degree column.  So the result is the layer applied twice.
-/
import proofs.«167187_j37778532335671_1_alg».proof.Proof.KernelHost
import proofs.«167187_j37778532335671_1_alg».proof.Proof.Region0
import proofs.«167187_j37778532335671_1_alg».proof.Proof.Region1

set_option maxRecDepth 16384

noncomputable section

namespace Cert.KernelIdeal.KernelValue

open Cert.KernelIdeal Cert.KernelIdeal.Gen Cert.KernelIdeal.HostValue
open Idealize.ShloMosaic Idealize.ShloMosaic.TcCoe Idealize.SL.Sem

variable (m : (ℓ : Loc nD τ sig) → Buf (Elt Ideal) ℓ) (ρ : Dev nD → PrngReg)

/-- The first region's output: one layer over the input features. -/
theorem first (c : Dev nD) :
    (dat0 (V1 m ρ) c).arrAt 4 cfg0.N
      = layer (m ((c : Thread nD τ).loc main_arg0)) (m ((c : Thread nD τ).loc main_arg1)) (m ((c : Thread nD τ).loc main_arg2))
          (m ((c : Thread nD τ).loc main_arg3)) (m ((c : Thread nD τ).loc main_arg4)) := by
  rw [Cert.KernelIdeal.RegionValue.final0 (V1 m ρ) c, entry0_agg, entry0_deg, entry0_w, entry0_b]
  rfl

/-- The returned array: the layer applied twice. -/
theorem result (c : Dev nD) :
    W4 m ρ c (Proc.devRef .tc main_v51)
      = layer (m ((c : Thread nD τ).loc main_arg0)) (m ((c : Thread nD τ).loc main_arg1))
          (layer (m ((c : Thread nD τ).loc main_arg0)) (m ((c : Thread nD τ).loc main_arg1)) (m ((c : Thread nD τ).loc main_arg2))
            (m ((c : Thread nD τ).loc main_arg3)) (m ((c : Thread nD τ).loc main_arg4)))
          (m ((c : Thread nD τ).loc main_arg5)) (m ((c : Thread nD τ).loc main_arg6)) := by
  rw [exit1_out, Cert.KernelIdeal.RegionValue.final1 (V3 m ρ) c, entry1_agg, entry1_deg, entry1_w, entry1_b, first]
  rfl

end Cert.KernelIdeal.KernelValue

end
-- ==== Proof.RefDense.lean ====
/-
  One dense layer as the reference computes it on whole arrays, read entry by entry.

  The reference scales row p of A by d[p] (kept as a column and spread along the 256 features), multiplies by the
  256 × 256 matrix W, adds the bias b (kept as a row and spread down the 100000 rows) and clamps below at zero.
  Entry (p, q) of that array is

      max ( Σ_k (A[p, k] · d[p]) · W[k, q]  +  b[q] ,  0 ),

  which is the entry the layer's specification names. Two small facts about layouts sit beside it: a vector of
  length n laid out as an n × 1 column, or as a 1 × n row, is the same array whether it is written as a reshape or
  as a broadcast along the new unit axis.
-/
import proofs.«167187_j37778532335671_1_alg».proof.ReferenceIdeal
import proofs.«167187_j37778532335671_1_alg».proof.Proof.Gen.ReferenceIdeal
import Idealize.ShloMosaic.Lib.ValueIdx
import Idealize.ShloMosaic.Lib.Pipeline.Value
import Idealize.ShloMosaic.PureOps.Ideal.Laws
import proofs.«167187_j37778532335671_1_alg».proof.Proof.Layer

noncomputable section

namespace Cert.ReferenceIdeal.RefValue

open Cert.ReferenceIdeal Cert.ReferenceIdeal.Gen Idealize.ShloMosaic Idealize.ShloMosaic.ValueIdx
open scoped BigOperators

/-! ## The contraction's operand indices, axis by axis -/

theorem lhs_axis0 (i : S100000x256.Idx) (q : dot_S100000x256_S256x256_S100000x256_1_0_0_1_n_n.contr.Idx) :
    (dot_S100000x256_S256x256_S100000x256_1_0_0_1_n_n.lhsIdx i q 0).val = (i 0).val := by
  unfold DotDims.lhsIdx
  rw [dif_neg (show ¬(0 : Fin S100000x256.rank) ∈ dot_S100000x256_S256x256_S100000x256_1_0_0_1_n_n.lhsBatch by decide), dif_pos (show (0 : Fin S100000x256.rank) ∈ dot_S100000x256_S256x256_S100000x256_1_0_0_1_n_n.lhsNonContracting by decide)]
  rfl

theorem lhs_axis1 (i : S100000x256.Idx) (q : dot_S100000x256_S256x256_S100000x256_1_0_0_1_n_n.contr.Idx) :
    (dot_S100000x256_S256x256_S100000x256_1_0_0_1_n_n.lhsIdx i q 1).val = (q ⟨0, by decide⟩).val :=
  dot_S100000x256_S256x256_S100000x256_1_0_0_1_n_n.lhsIdx_val_of_single rfl i q

theorem rhs_axis0 (i : S100000x256.Idx) (q : dot_S100000x256_S256x256_S100000x256_1_0_0_1_n_n.contr.Idx) :
    (dot_S100000x256_S256x256_S100000x256_1_0_0_1_n_n.rhsIdx i q 0).val = (q ⟨0, by decide⟩).val :=
  dot_S100000x256_S256x256_S100000x256_1_0_0_1_n_n.rhsIdx_val_of_single rfl i q

theorem rhs_axis1 (i : S100000x256.Idx) (q : dot_S100000x256_S256x256_S100000x256_1_0_0_1_n_n.contr.Idx) :
    (dot_S100000x256_S256x256_S100000x256_1_0_0_1_n_n.rhsIdx i q 1).val = (i 1).val := by
  unfold DotDims.rhsIdx
  rw [dif_neg (show ¬(1 : Fin S256x256.rank) ∈ dot_S100000x256_S256x256_S100000x256_1_0_0_1_n_n.rhsBatch by decide), dif_pos (show (1 : Fin S256x256.rank) ∈ dot_S100000x256_S256x256_S100000x256_1_0_0_1_n_n.rhsNonContracting by decide)]
  rfl

/-- The product of a 100000 × 256 array with a 256 × 256 array, read at (p, q): the sum over the 256 shared
    features of row p against column q. -/
theorem dot_apply (X : FVec Ideal S100000x256 .f32) (W : FVec Ideal S256x256 .f32) (p : Fin 100000) (q : Fin 256) :
    Host.dotGeneral (F := Ideal) dot_S100000x256_S256x256_S100000x256_1_0_0_1_n_n none X W (ix2 p q)
      = ∑ k : Fin 256, X (ix2 p k) * W (ix2 k q) := by
  simp only [Host.dotGeneral]
  rw [Ideal.dotGeneral_apply, ← Equiv.sum_comp (contrEquiv1 dot_S100000x256_S256x256_S100000x256_1_0_0_1_n_n 256 rfl rfl).symm]
  refine Finset.sum_congr rfl fun k _ => ?_
  have hk := contrEquiv1_symm_val dot_S100000x256_S256x256_S100000x256_1_0_0_1_n_n 256 rfl rfl k
  have el : dot_S100000x256_S256x256_S100000x256_1_0_0_1_n_n.lhsIdx (ix2 p q) ((contrEquiv1 dot_S100000x256_S256x256_S100000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S100000x256_S256x256_S100000x256_1_0_0_1_n_n.rhsIdx (ix2 p q) ((contrEquiv1 dot_S100000x256_S256x256_S100000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The three spreads, read at (p, q) -/

/-- A 100000 × 1 column spread along 256 features reads, at (p, q), the column's entry (p, 0). -/
theorem col_spread_apply {α : Type} (c : S100000x1.Idx → α) (p : Fin 100000) (q : Fin 256) :
    broadcastInDim S100000x256 ![0, 1] bcast_S100000x1_S100000x256_0_1 c (ix2 p q) = c (ix2 p (0 : Fin 1)) :=
  broadcastInDim_apply _ bcast_S100000x1_S100000x256_0_1 c (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A 1 × 256 row spread down 100000 rows reads, at (p, q), the row's entry (0, q). -/
theorem row_spread_apply {α : Type} (r : S1x256.Idx → α) (p : Fin 100000) (q : Fin 256) :
    broadcastInDim S100000x256 ![0, 1] bcast_S1x256_S100000x256_0_1 r (ix2 p q) = r (ix2 (0 : Fin 1) q) :=
  broadcastInDim_apply _ bcast_S1x256_S100000x256_0_1 r (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- A single number spread over the whole 100000 × 256 array reads that number everywhere. -/
theorem scalar_spread_apply {α : Type} (z : S_.Idx → α) (i : S100000x256.Idx) :
    broadcastInDim S100000x256 ![] bcast_S_S100000x256 z i = z ix0 :=
  broadcastInDim_apply _ bcast_S_S100000x256 z i ix0 (fun a => a.elim0)

/-! ## The layer -/

/-- The reference's layer, relu((A · d[:, None]) @ W + b), is the specified dense layer of A, the column of d, W and
    the row of b. -/
theorem dense_eq (A : FVec Ideal S100000x256 .f32) (d : FVec Ideal S100000 .f32) (W : FVec Ideal S256x256 .f32)
    (b : FVec Ideal S256 .f32) :
    maximumf (addf (Host.dotGeneral (F := Ideal) dot_S100000x256_S256x256_S100000x256_1_0_0_1_n_n none
                      (mulf A (broadcastInDim S100000x256 ![0, 1] bcast_S100000x1_S100000x256_0_1 (broadcastInDim S100000x1 ![0] bcast_S100000_S100000x1_0 d))) W)
                   (broadcastInDim S100000x256 ![0, 1] bcast_S1x256_S100000x256_0_1 (broadcastInDim S1x256 ![1] bcast_S256_S1x256_1 b)))
             (broadcastInDim S100000x256 ![] bcast_S_S100000x256 (constant (F := Ideal) S_ .f32 0x00000000#32))
      = Cert.GraphConv.dense A (broadcastInDim S100000x1 ![0] bcast_S100000_S100000x1_0 d) W (broadcastInDim S1x256 ![1] bcast_S256_S1x256_1 b) := by
  funext i
  obtain ⟨p, q, rfl⟩ : ∃ (p : Fin 100000) (q : Fin 256), i = ix2 p q := ⟨i 0, i 1, eq_ix2 i⟩
  rw [Cert.GraphConv.dense_apply]
  unfold Cert.GraphConv.denseAt
  rw [maximumf_apply, addf_apply, dot_apply, row_spread_apply, scalar_spread_apply, constant_apply]
  congr 2
  refine Finset.sum_congr rfl fun k _ => ?_
  rw [mulf_apply, col_spread_apply]

/-! ## A vector as a column, a vector as a row -/

/-- A vector of length 100000 reshaped to a 100000 × 1 column is the vector broadcast along a new unit axis. -/
theorem reshape_col (d : FVec Ideal S100000 .f32) (h : S100000.ShapeCasts S100000x1) :
    shapeCast S100000x1 d h = broadcastInDim S100000x1 ![0] bcast_S100000_S100000x1_0 d := by
  funext i
  obtain ⟨p, u, rfl⟩ : ∃ (p : Fin 100000) (u : Fin 1), i = ix2 p u := ⟨i 0, i 1, eq_ix2 i⟩
  have hu : u.val = 0 := by omega
  rw [shapeCast_apply d h (ix2 p u) (ix1 p) (by
        rw [Shape.rowMajor_val_two, Shape.rowMajor_val_one]
        show p.val = p.val * 1 + u.val
        rw [hu, Nat.mul_one, Nat.add_zero]),
      broadcastInDim_apply _ bcast_S100000_S100000x1_0 d (ix2 p u) (ix1 p) (fun a => match a with
        | ⟨0, _⟩ => by show p.val = if (100000 : Nat) = 1 then 0 else p.val; rw [if_neg (by decide)])]

/-- A vector of length 256 reshaped to a 1 × 256 row is the vector broadcast along a new unit axis. -/
theorem reshape_row (b : FVec Ideal S256 .f32) (h : S256.ShapeCasts S1x256) :
    shapeCast S1x256 b h = broadcastInDim S1x256 ![1] bcast_S256_S1x256_1 b := by
  funext i
  obtain ⟨u, q, rfl⟩ : ∃ (u : Fin 1) (q : Fin 256), i = ix2 u q := ⟨i 0, i 1, eq_ix2 i⟩
  have hu : u.val = 0 := by omega
  rw [shapeCast_apply b h (ix2 u q) (ix1 q) (by
        rw [Shape.rowMajor_val_two, Shape.rowMajor_val_one]
        show q.val = u.val * 256 + q.val
        rw [hu, Nat.zero_mul, Nat.zero_add]),
      broadcastInDim_apply _ bcast_S256_S1x256_1 b (ix2 u q) (ix1 q) (fun a => match a with
        | ⟨0, _⟩ => by show q.val = if (256 : Nat) = 1 then 0 else q.val; rw [if_neg (by decide)])]

end Cert.ReferenceIdeal.RefValue

end
-- ==== Proof.LibGatherRows.lean ====
/-
  The row gather of a rank-2 table, read at one element.

  jnp's `table[idx]` over an [N × C] table with E positions prints as a `stablehlo.gather` whose start indices are the
  [E × 1] column of positions: operand axis 0 is collapsed and start-indexed, operand axis 1 is kept whole and is the
  result's one offset axis (result axis 1), there are no batching axes, and the index vector lies on axis 1 of the
  start indices. Entry (e, j) of the result is then entry (r, j) of the table, where the row r is position e's start
  index read SIGNED and CLAMPED into the table (a negative index reads row 0, one past the end reads the last row).
  The row depends on the position alone, not on the column.
-/
import Idealize.ShloMosaic.PureOps.Ideal
import Idealize.ShloMosaic.Lib.ValueIdx

namespace Idealize.ShloMosaic.GatherRows

open Idealize.ShloMosaic Idealize.ShloMosaic.ValueIdx

/-- A list that is the one-element list `[v]` reads `v` at every valid position. -/
theorem getElem_of_eq_singleton {β : Type} {l : List β} {v : β} (hl : l = [v]) (k : Nat) (h : k < l.length) : l[k]'h = v := by
  subst hl
  have hk : k = 0 := by simpa using h
  subst hk
  rfl

/-- THE ROW GATHER. Result entry (e, j) of the gather described above reads the table at row
    `min (signed start index of position e) (N − 1)` (negative indices read as row 0) and column `j`.
    The hypotheses are the printed dimension numbers, each by `rfl` for a concrete record. -/
theorem gather_rows {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![E, 1]⟩ w) (e : Fin E) (j : Fin C) :
    Host.gather d x idx (ix2 e j) = x (ix2 ⟨min (idx (ix2 e (0 : Fin 1))).toInt.toNat (N - 1), by omega⟩ j) := by
  unfold Host.gather
  congr 1
  funext a
  apply Fin.ext
  match a with
  | ⟨0, _⟩ =>
    -- operand axis 0: collapsed and start-indexed, so the coordinate is the clamped start alone
    show (d.operandIdx (ix2 e j) idx (0 : Fin 2)).val = min (idx (ix2 e (0 : Fin 1))).toInt.toNat (N - 1)
    have hb : (0 : Fin 2) ∉ d.operandBatchingDims := by rw [hob]; exact List.not_mem_nil
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 e (0 : Fin 1))).toInt.toNat (N - 1)
    rw [hsl]
    congr 3
    congr 1
    funext b
    match b with
    | ⟨0, _⟩ =>
      -- start-indices axis 0 is a batch axis: it carries the position e (the result's one batch axis is axis 0)
      have hbd : d.batchDims = [0] := by
        show Shape.kept _ d.offsetDims = [0]
        rw [hoff]; rfl
      unfold GatherDims.siIdx
      rw [dif_neg (by rw [hivd]; simp)]
      unfold GatherDims.siCoord
      apply Fin.ext
      simp only [Fin.val_cast]
      rw [getElem_of_eq_singleton hbd]
      rfl
    | ⟨1, _⟩ =>
      -- start-indices axis 1 is the index vector's: component 0, the position of operand axis 0 in the start index map
      unfold GatherDims.siIdx
      rw [dif_pos (by rw [hivd])]
      apply Fin.ext
      show List.idxOf (0 : Fin 2) d.startIndexMap = 0
      rw [hsim]; simp

  | ⟨1, _⟩ =>
    -- operand axis 1: kept whole, not start-indexed, so the coordinate is the result's offset coordinate j
    show (d.operandIdx (ix2 e j) idx (1 : Fin 2)).val = j.val
    have hb : (1 : Fin 2) ∉ d.operandBatchingDims := by rw [hob]; exact List.not_mem_nil
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ hb, Nat.add_zero, GatherDims.start,
      dif_neg hm, Nat.zero_add, GatherDims.offCoord, dif_pos hk]
    rw [getElem_of_eq_singleton hoff]
    rfl

end Idealize.ShloMosaic.GatherRows
-- ==== Proof.GatherScale.lean ====
/-
  Scaling the gathered rows is gathering the scaled rows.

  The program gathers rows of a [100000 × 256] table `h` and, with the same positions, entries of a [100000 × 1]
  column `s` (one number per table row); it lays the gathered column along the 256 columns and multiplies. Both
  gathers read position e's start index clamped into the same range [0, 99999], so entry (e, j) of the product is
  h[r, j] · s[r, 0] for that one row r: the gather of the table whose row r has been scaled by s[r, 0].
-/
import proofs.«167187_j37778532335671_1_alg».proof.KernelIdeal
import proofs.«167187_j37778532335671_1_alg».proof.Proof.LibGatherRows
import Idealize.ShloMosaic.Lib.ValueIdx
import Idealize.ShloMosaic.Lib.StableHlo.Predicate

noncomputable section

namespace Cert.KernelIdeal.GatherScale

open Idealize.ShloMosaic Idealize.ShloMosaic.ValueIdx Idealize.ShloMosaic.GatherRows
open Cert.KernelIdeal Cert.KernelIdeal.Facts₀ Cert.KernelIdeal.Facts

variable [Facts]

/-- A [n × 1] column laid along the second axis of an [n × m] rectangle reads, at (p, q), the column at (p, 0). -/
theorem bcast_col_apply {α : Type} {n m : Nat} (h₂ : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h₂ v (ix2 p q) = v (ix2 p (0 : Fin 1)) := by
  have e₁ : ix2 p q = StableHlo.Predicate.ij p q := by
    funext a; match a with | ⟨0, _⟩ => rfl | ⟨1, _⟩ => rfl
  have e₂ : ix2 p (0 : Fin 1) = StableHlo.Predicate.ixP p := by
    funext a; match a with | ⟨0, _⟩ => rfl | ⟨1, _⟩ => rfl
  rw [e₁, e₂]
  exact StableHlo.Predicate.bcast_of_col h₂ v p q

/-- Entry (e, j) of the scaled gather and of the gather of the scaled table are the same product, read at the
    clamped row of position e. -/
theorem mul_gather (h : FVec Ideal S100000x256 .f32) (s : FVec Ideal S100000x1 .f32) (idx : IVec S320000x1 32) :
    mulf (Host.gather gather_S100000x256_S320000x1_S320000x256_1_0_n_n_0_1_1256 h idx)
         (broadcastInDim S320000x256 ![0, 1] bcast_S320000x1_S320000x256_0_1
           (Host.gather gather_S100000x1_S320000x1_S320000x1_1_0_n_n_0_1_11 s idx))
      = Host.gather gather_S100000x256_S320000x1_S320000x256_1_0_n_n_0_1_1256
          (fun i => h i * s (ix2 (i 0) (0 : Fin 1))) idx := by
  funext i
  obtain ⟨e, j, rfl⟩ : ∃ (e : Fin 320000) (j : Fin 256), i = ix2 e j := ⟨i 0, i 1, eq_ix2 i⟩
  rw [mulf_apply, bcast_col_apply,
    gather_rows gather_S100000x256_S320000x1_S320000x256_1_0_n_n_0_1_1256 rfl rfl rfl rfl rfl (by decide) h idx e j,
    gather_rows gather_S100000x1_S320000x1_S320000x1_1_0_n_n_0_1_11 rfl rfl rfl rfl rfl (by decide) s idx e (0 : Fin 1),
    gather_rows gather_S100000x256_S320000x1_S320000x256_1_0_n_n_0_1_1256 rfl rfl rfl rfl rfl (by decide) _ idx e j]

end Cert.KernelIdeal.GatherScale

end
-- ==== Proof.Bridge.lean ====
/-
  The two programs compute one function.

  A layer of the graph convolution, as the reference writes it: scale every feature row by its node's out-degree
  factor, fetch the scaled row of each edge's source, sum the fetched rows into the edge's target, scale every
  aggregated row by its node's in-degree factor, multiply by the weights, add the bias, clamp at zero.  The kernel
  program fetches the unscaled source row and the source's factor separately and multiplies per edge; a row gather
  only re-indexes its table, so the product of two gathers at the same positions is the gather of the product.  The
  kernel program writes the degree clamp as max(count, 1), the reference as max(1, count).  The dense part is the
  same sum over the 256 input features on both sides.  So one layer is one function of its five arrays, and the
  whole result, two layers composed, is one function of the seven arguments.
-/
import proofs.«167187_j37778532335671_1_alg».proof.Proof.Gen.ReferenceIdeal.Run
import proofs.«167187_j37778532335671_1_alg».proof.Proof.KernelHost
import proofs.«167187_j37778532335671_1_alg».proof.Proof.RefDense
import proofs.«167187_j37778532335671_1_alg».proof.Proof.GatherScale
import proofs.«167187_j37778532335671_1_alg».proof.Proof.Layer

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.ValueIdx

/-! ## The reference's terms -/

/-- For every node, (the number of edges whose listed end is that node, at least one) to the power −1/2, as the
    reference writes it. -/
def invSqrtCount (ix : IVec S320000 32) : FVec Ideal S100000 .f32 :=
  Host.powf
    (maximumf
      (broadcastInDim S100000 ![] bcast_S_S100000 (constant (F := Ideal) S_ .f32 0x3F800000#32))
      (Host.scatterAdd scatter_S100000_S320000x1_S320000_n_0_0_1
        (broadcastInDim S100000 ![] bcast_S_S100000 (constant (F := Ideal) S_ .f32 0x00000000#32))
        (broadcastInDim S320000x1 ![0] bcast_S320000_S320000x1_0 ix)
        (broadcastInDim S320000 ![] bcast_S_S320000 (constant (F := Ideal) S_ .f32 0x3F800000#32))))
    (broadcastInDim S100000 ![] bcast_S_S100000 (constant (F := Ideal) S_ .f32 0xBF000000#32))

/-- Positions with the negative ones moved up by the node count. -/
def wrapped (ix : IVec S320000 32) : IVec S320000 32 :=
  select (cmpi .slt ix (broadcastInDim S320000 ![] bcast_S_S320000 (constantI S_ 32 0#32)))
    (addi ix (broadcastInDim S320000 ![] bcast_S_S320000 (constantI S_ 32 100000#32))) ix

/-- The reference's aggregation: the rows scaled first, then fetched and summed. -/
def aggregate (src dst : IVec S320000 32) (h : FVec Ideal S100000x256 .f32) : FVec Ideal S100000x256 .f32 :=
  Host.scatterAdd scatter_S100000x256_S320000x1_S320000x256_1_0_0_1
    (broadcastInDim S100000x256 ![] bcast_S_S100000x256 (constant (F := Ideal) S_ .f32 0x00000000#32))
    (broadcastInDim S320000x1 ![0] bcast_S320000_S320000x1_0 dst)
    (Host.gather gather_S100000x256_S320000x1_S320000x256_1_0_n_n_0_1_1256
      (mulf h (broadcastInDim S100000x256 ![0, 1] bcast_S100000x1_S100000x256_0_1
        (broadcastInDim S100000x1 ![0] bcast_S100000_S100000x1_0 (invSqrtCount src))))
      (broadcastInDim S320000x1 ![0] bcast_S320000_S320000x1_0 (wrapped src)))

/-- One layer as the reference writes it. -/
def layer (src dst : IVec S320000 32) (h : FVec Ideal S100000x256 .f32) (W : FVec Ideal S256x256 .f32) (b : FVec Ideal S256 .f32) :
    FVec Ideal S100000x256 .f32 :=
  maximumf (addf (Host.dotGeneral (F := Ideal) dot_S100000x256_S256x256_S100000x256_1_0_0_1_n_n none
                    (mulf (aggregate src dst h) (broadcastInDim S100000x256 ![0, 1] bcast_S100000x1_S100000x256_0_1
                      (broadcastInDim S100000x1 ![0] bcast_S100000_S100000x1_0 (invSqrtCount dst)))) W)
                 (broadcastInDim S100000x256 ![0, 1] bcast_S1x256_S100000x256_0_1 (broadcastInDim S1x256 ![1] bcast_S256_S1x256_1 b)))
           (broadcastInDim S100000x256 ![] bcast_S_S100000x256 (constant (F := Ideal) S_ .f32 0x00000000#32))

/-- The reference's result is two layers composed. -/
theorem result_eq (m : (ℓ : Loc nD τ sig) → Buf (Elt Ideal) ℓ) (c : Dev nD) :
    Cert.ReferenceIdeal.Value.res_main_v67 m c
      = layer (m ((c.tc : Thread nD τ).loc main_arg0)) (m ((c.tc : Thread nD τ).loc main_arg1))
          (layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)))
          (m ((c.tc : Thread nD τ).loc main_arg5)) (m ((c.tc : Thread nD τ).loc main_arg6)) := by
  unfold Cert.ReferenceIdeal.Value.res_main_v67
  rfl

/-! ## One layer is one function -/

/-- The degree factors agree: the two programs clamp the count by max(count, 1) and max(1, count). -/
theorem count_eq (ix : IVec S320000 32) : Cert.KernelIdeal.HostValue.invSqrtCount ix = invSqrtCount ix := by
  unfold Cert.KernelIdeal.HostValue.invSqrtCount invSqrtCount
  refine congrArg (fun t => Host.powf (F := Ideal) t (broadcastInDim S100000 ![] bcast_S_S100000 (constant (F := Ideal) S_ .f32 0xBF000000#32))) ?_
  funext i
  exact max_comm _ _

/-- The degree columns agree: the kernel program reshapes the factors into a column, the reference spreads them along
    a new unit axis. -/
theorem degColumn_eq (ix : IVec S320000 32) :
    Cert.KernelIdeal.HostValue.degColumn ix = broadcastInDim S100000x1 ![0] bcast_S100000_S100000x1_0 (invSqrtCount ix) := by
  unfold Cert.KernelIdeal.HostValue.degColumn
  rw [count_eq]
  exact reshape_col _ _

/-! The two programs print the same dimension numbers and the same index arithmetic, each under its own names. -/

theorem scatterRows_rec :
    Cert.KernelIdeal.scatter_S100000x256_S320000x1_S320000x256_1_0_0_1 = scatter_S100000x256_S320000x1_S320000x256_1_0_0_1 := rfl

theorem gatherRows_rec :
    Cert.KernelIdeal.gather_S100000x256_S320000x1_S320000x256_1_0_n_n_0_1_1256 = gather_S100000x256_S320000x1_S320000x256_1_0_n_n_0_1_1256 := rfl

theorem col_eq (ix : IVec S320000 32) :
    Cert.KernelIdeal.HostValue.col ix = broadcastInDim S320000x1 ![0] bcast_S320000_S320000x1_0 ix := rfl

theorem wrapped_eq (ix : IVec S320000 32) : Cert.KernelIdeal.HostValue.wrapped ix = wrapped ix := rfl

/-- The aggregations agree: a row gather re-indexes its table, so multiplying the fetched rows by the fetched factors
    is fetching the rows of the table scaled row by row. -/
theorem aggregate_eq (src dst : IVec S320000 32) (h : FVec Ideal S100000x256 .f32) :
    Cert.KernelIdeal.HostValue.aggregate src dst h = aggregate src dst h := by
  unfold Cert.KernelIdeal.HostValue.aggregate Cert.KernelIdeal.HostValue.aggregateWith Cert.KernelIdeal.HostValue.outScale aggregate
  rw [Cert.KernelIdeal.GatherScale.mul_gather]
  have e : (fun i : S100000x256.Idx => h i * (Cert.KernelIdeal.HostValue.degColumn src) (ix2 (i 0) (0 : Fin 1)))
      = mulf h (broadcastInDim S100000x256 ![0, 1] bcast_S100000x1_S100000x256_0_1
          (broadcastInDim S100000x1 ![0] bcast_S100000_S100000x1_0 (invSqrtCount src))) := by
    funext i
    obtain ⟨p, q, rfl⟩ : ∃ (p : Fin 100000) (q : Fin 256), i = ix2 p q := ⟨i 0, i 1, eq_ix2 i⟩
    rw [mulf_apply, col_spread_apply, degColumn_eq]
  rw [scatterRows_rec, gatherRows_rec, col_eq, col_eq, wrapped_eq]
  exact congrArg (fun t => Host.scatterAdd (F := Ideal) scatter_S100000x256_S320000x1_S320000x256_1_0_0_1 _ _
    (Host.gather gather_S100000x256_S320000x1_S320000x256_1_0_n_n_0_1_1256 t _)) e

/-- ONE LAYER: the kernel program's layer (the dense layer over its aggregation) is the reference's. -/
theorem layer_eq (src dst : IVec S320000 32) (h : FVec Ideal S100000x256 .f32) (W : FVec Ideal S256x256 .f32) (b : FVec Ideal S256 .f32) :
    Cert.KernelIdeal.HostValue.layer src dst h W b = layer src dst h W b := by
  unfold Cert.KernelIdeal.HostValue.layer layer
  rw [dense_eq, aggregate_eq]
  have e_d := degColumn_eq dst
  have e_b : Cert.KernelIdeal.HostValue.biasRow b = broadcastInDim S1x256 ![1] bcast_S256_S1x256_1 b := by
    unfold Cert.KernelIdeal.HostValue.biasRow
    exact reshape_row _ _
  rw [e_d, e_b]

end Cert.ReferenceIdeal.RefValue

end
-- ==== Proof.lean ====
/-
  A two-layer graph convolution over an edge list (100000 nodes, 320000 edges, 256 features), against its plain
  reference, over the extended reals.

  Both programs compute, twice, the layer

      out = max( (D_in^{-1/2} · A · D_out^{-1/2} · h) · W + b , 0 ),

  where A sums, into each edge's target row, the source row of that edge, and D_in, D_out count the edges entering
  and leaving each node (counts kept at least one).  The kernel program does the irregular part (counting, fetching
  source rows, summing into target rows) with host operations and the dense part (scaling each aggregated row by its
  in-degree factor, the 256 × 256 matrix product, the bias, the clamp at zero) in a kernel over fifty tiles of 2000
  rows; it multiplies each fetched row by its source's out-degree factor after fetching, where the reference scales
  the table before fetching.  A row gather only re-indexes its table, so the two orders give the same array; the
  tiles cover all rows and each computes the same sum over the 256 input features as the reference's matrix product;
  the narrowing of the matrix operands is the identity on extended reals.  No step uses an algebraic law that fails
  at infinities, so the precondition is not opened.

  The three frames: the kernel programs' are their generated frame certificates; the reference's is its generated run
  with the result dropped.  The idealization rewrote nothing, so its claim is trivially true.  The equivalence: the
  kernel program's run with its returned array named, that array read as the layer applied twice (each region's
  output assembled from its tiles, the host operations read in between), the reference's generated run, and the
  equality of one layer of each program for all arrays.
-/
import proofs.«167187_j37778532335671_1_alg».proof.Defs
import proofs.«167187_j37778532335671_1_alg».proof.Proof.Gen.Kernel
import proofs.«167187_j37778532335671_1_alg».proof.Proof.Gen.Kernel.Frame
import proofs.«167187_j37778532335671_1_alg».proof.Proof.Gen.KernelIdeal
import proofs.«167187_j37778532335671_1_alg».proof.Proof.Gen.KernelIdeal.Frame
import proofs.«167187_j37778532335671_1_alg».proof.Proof.Gen.ReferenceIdeal
import proofs.«167187_j37778532335671_1_alg».proof.Proof.Gen.Pre_finite_inputs
import proofs.«167187_j37778532335671_1_alg».proof.Proof.Gen.ReferenceIdeal.Run
import proofs.«167187_j37778532335671_1_alg».proof.Proof.KernelRun
import proofs.«167187_j37778532335671_1_alg».proof.Proof.KernelValue
import proofs.«167187_j37778532335671_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the layer applied twice to them. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KernelValue.result m ρ c), (h c).2⟩)
      (Cert.KernelIdeal.GenRun.run_named (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2,
    ← Cert.ReferenceIdeal.RefValue.layer_eq, ← Cert.ReferenceIdeal.RefValue.layer_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
